-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x32000 : Shape := ⟨2, ![4096, 32000]⟩
abbrev S4096 : Shape := ⟨1, ![4096]⟩
abbrev S_ : Shape := ⟨0, ![]⟩

class Facts : Prop where
  bcast_S_S4096x32000 : S_.BroadcastsInDim S4096x32000 (![] : Fin 0 → Fin S4096x32000.rank)
  reducesTo_S4096x32000_S_d0_1 : S4096x32000.ReducesTo [0, 1] S_
  h_S_ : 0 < S_.numel
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S4096x32000 .f32) (main_arg1 : IVec S4096 32) : IVec S_ 1 :=
  let main_v0 : FVec F S4096x32000 .f32 := Host.absf main_arg0
  let main_cst : FVec F S_ .f32 := constant S_ .f32 0x7F800000#32
  let main_v1 : FVec F S4096x32000 .f32 := broadcastInDim S4096x32000 ![] bcast_S_S4096x32000 main_cst
  let main_v2 : IVec S4096x32000 1 := cmpf .olt main_v0 main_v1
  let main_c : IVec S_ 1 := constantI S_ 1 1#1
  let main_v3 : IVec S_ 1 := (fun x v => Host.reduce IntOp.andi x v reducesTo_S4096x32000_S_d0_1 h_S_) main_v2 main_c
  let main_c_0 : IVec S_ 32 := constantI S_ 32 0#32
  let main_v4 : IVec S4096 32 := broadcastInDim S4096 ![] bcast_S_S4096 main_c_0
  let main_v5 : IVec S4096 1 := cmpi .sge main_arg1 main_v4
  let main_c_1 : IVec S_ 32 := constantI S_ 32 32000#32
  let main_v6 : IVec S4096 32 := broadcastInDim S4096 ![] bcast_S_S4096 main_c_1
  let main_v7 : IVec S4096 1 := cmpi .slt main_arg1 main_v6
  let main_v8 : IVec S4096 1 := andi main_v5 main_v7
  let main_c_2 : IVec S_ 1 := constantI S_ 1 1#1
  let main_v9 : IVec S_ 1 := (fun x v => Host.reduce IntOp.andi x v reducesTo_S4096_S_d0 h_S_) main_v8 main_c_2
  let main_v10 : IVec S_ 1 := andi main_v3 main_v9
  main_v10
-- ==== Kernel.lean ====
abbrev S4096x32000 : Shape := ⟨2, ![4096, 32000]⟩
abbrev S4096 : Shape := ⟨1, ![4096]⟩
abbrev S4096x1 : Shape := ⟨2, ![4096, 1]⟩
abbrev S64x32000 : Shape := ⟨2, ![64, 32000]⟩
abbrev S64x1 : Shape := ⟨2, ![64, 1]⟩
abbrev S64 : Shape := ⟨1, ![64]⟩
abbrev S_ : Shape := ⟨0, ![]⟩

abbrev nBuf : Space → Nat
  | .hbm => 8
  | .vmem => 6
  | .smem => 0
  | _ => 0

abbrev bufTy : (tb : Table) → Fin (tcTables nBuf tb) → BufTy
  | .hbm, ⟨0, _⟩ => ⟨S4096x32000, .f32⟩
  | .hbm, ⟨1, _⟩ => ⟨S4096, .i32⟩
  | .hbm, ⟨2, _⟩ => ⟨S4096x1, .i32⟩
  | .hbm, ⟨3, _⟩ => ⟨S4096x1, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .local _ .vmem, ⟨0, _⟩ => ⟨S64x32000, .f32⟩
  | .local _ .vmem, ⟨1, _⟩ => ⟨S64x32000, .f32⟩
  | .local _ .vmem, ⟨2, _⟩ => ⟨S64x1, .i32⟩
  | .local _ .vmem, ⟨3, _⟩ => ⟨S64x1, .i32⟩
  | .local _ .vmem, ⟨4, _⟩ => ⟨S64x1, .f32⟩
  | .local _ .vmem, ⟨5, _⟩ => ⟨S64x1, .f32⟩
  | _, _ => ⟨S4096x32000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x32000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S4096_S4096x1 : S4096.ShapeCasts S4096x1
  inb_S64x32000_S64x32000_0_0 : ∀ a, (![0, 0] : Fin 2 → Nat) a + S64x32000.size a ≤ S64x32000.size a
  h_S64x32000 : 0 < S64x32000.numel
  inb_S64x1_S64x1_0_0 : ∀ a, (![0, 0] : Fin 2 → Nat) a + S64x1.size a ≤ S64x1.size a
  h_S64x1 : 0 < S64x1.numel
  shapeCasts_S64x1_S64x1 : S64x1.ShapeCasts S64x1
  reduces_S64x32000_S64 : S64x32000.Reduces [1] S64
  shapeCasts_S64_S64x1 : S64.ShapeCasts S64x1
  broadcasts_S64x1_S64x32000 : S64x1.Broadcasts S64x32000
  iota_S64x32000_d1_w32 : S64x32000.Iotas .tc 32 [1]
  reducesTo_S4096x1_S_d0_1 : S4096x1.ReducesTo [0, 1] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x32000.size a ≤ S4096x32000.size a
  hwx0_0 : ∀ i : grid0.Coords, EltTy.bits .f32 = 32 ∨ (Rect.block (s := S4096x32000) S64x32000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x1.size a ≤ S4096x1.size a
  hwx0_1 : ∀ i : grid0.Coords, EltTy.bits .i32 = 32 ∨ (Rect.block (s := S4096x1) S64x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S64x1.size a ≤ S4096x1.size a
  hwx0_2 : ∀ i : grid0.Coords, EltTy.bits .f32 = 32 ∨ (Rect.block (s := S4096x1) S64x1.size (cc0_transform_2 i) (hinb0_2 i)).WholeWords (EltTy.packing .f32)

variable [Facts₀]

abbrev win0_0 : Pipeline.Window sig grid0 :=
  Pipeline.Window.ofSpec (Memref.whole main_arg0) S64x32000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S64x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S64x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4096x32000 : Shape := ⟨2, ![4096, 32000]⟩
abbrev S4096 : Shape := ⟨1, ![4096]⟩
abbrev S_ : Shape := ⟨0, ![]⟩
abbrev S4096x1 : Shape := ⟨2, ![4096, 1]⟩
abbrev S4096x1x1 : Shape := ⟨3, ![4096, 1, 1]⟩
abbrev S1 : Shape := ⟨1, ![1]⟩
abbrev S1x1x1 : Shape := ⟨3, ![1, 1, 1]⟩
abbrev S32000 : Shape := ⟨1, ![32000]⟩
abbrev S1x32000 : Shape := ⟨2, ![1, 32000]⟩

abbrev nBuf : Space → Nat
  | .hbm => 80
  | .vmem => 0
  | .smem => 0
  | _ => 0

abbrev bufTy : (tb : Table) → Fin (tcTables nBuf tb) → BufTy
  | .hbm, ⟨0, _⟩ => ⟨S4096x32000, .f32⟩
  | .hbm, ⟨1, _⟩ => ⟨S4096, .i32⟩
  | .hbm, ⟨2, _⟩ => ⟨S_, .f32⟩
  | .hbm, ⟨3, _⟩ => ⟨S4096, .f32⟩
  | .hbm, ⟨4, _⟩ => ⟨S_, .f32⟩
  | .hbm, ⟨5, _⟩ => ⟨S4096, .f32⟩
  | .hbm, ⟨6, _⟩ => ⟨S4096, .f32⟩
  | .hbm, ⟨7, _⟩ => ⟨S4096x1, .f32⟩
  | .hbm, ⟨8, _⟩ => ⟨S4096x32000, .f32⟩
  | .hbm, ⟨9, _⟩ => ⟨S4096x32000, .f32⟩
  | .hbm, ⟨10, _⟩ => ⟨S4096x32000, .f32⟩
  | .hbm, ⟨11, _⟩ => ⟨S_, .f32⟩
  | .hbm, ⟨12, _⟩ => ⟨S4096, .f32⟩
  | .hbm, ⟨13, _⟩ => ⟨S4096x1, .f32⟩
  | .hbm, ⟨14, _⟩ => ⟨S4096x32000, .f32⟩
  | .hbm, ⟨15, _⟩ => ⟨S4096x32000, .f32⟩
  | .hbm, ⟨16, _⟩ => ⟨S4096x1, .i32⟩
  | .hbm, ⟨17, _⟩ => ⟨S_, .i32⟩
  | .hbm, ⟨18, _⟩ => ⟨S4096x1, .i32⟩
  | .hbm, ⟨19, _⟩ => ⟨S4096x1, .i1⟩
  | .hbm, ⟨20, _⟩ => ⟨S_, .i32⟩
  | .hbm, ⟨21, _⟩ => ⟨S4096x1, .i32⟩
  | .hbm, ⟨22, _⟩ => ⟨S4096x1, .i32⟩
  | .hbm, ⟨23, _⟩ => ⟨S4096x1, .i32⟩
  | .hbm, ⟨24, _⟩ => ⟨S4096x1x1, .i32⟩
  | .hbm, ⟨25, _⟩ => ⟨S1, .i32⟩
  | .hbm, ⟨26, _⟩ => ⟨S_, .i32⟩
  | .hbm, ⟨27, _⟩ => ⟨S4096x1x1, .i32⟩
  | .hbm, ⟨28, _⟩ => ⟨S4096x1x1, .i1⟩
  | .hbm, ⟨29, _⟩ => ⟨S1x1x1, .i32⟩
  | .hbm, ⟨30, _⟩ => ⟨S4096x1x1, .i32⟩
  | .hbm, ⟨31, _⟩ => ⟨S4096x1x1, .i1⟩
  | .hbm, ⟨32, _⟩ => ⟨S4096x1x1, .i1⟩
  | .hbm, ⟨33, _⟩ => ⟨S_, .i1⟩
  | .hbm, ⟨34, _⟩ => ⟨S4096x1, .i1⟩
  | .hbm, ⟨35, _⟩ => ⟨S4096x1, .f32⟩
  | .hbm, ⟨36, _⟩ => ⟨S_, .f32⟩
  | .hbm, ⟨37, _⟩ => ⟨S4096x1, .f32⟩
  | .hbm, ⟨38, _⟩ => ⟨S4096x1, .f32⟩
  | .hbm, ⟨39, _⟩ => ⟨S4096, .f32⟩
  | .hbm, ⟨40, _⟩ => ⟨S_, .f32⟩
  | .hbm, ⟨41, _⟩ => ⟨S4096, .f32⟩
  | .hbm, ⟨42, _⟩ => ⟨S4096, .f32⟩
  | .hbm, ⟨43, _⟩ => ⟨S_, .f32⟩
  | .hbm, ⟨44, _⟩ => ⟨S4096, .f32⟩
  | .hbm, ⟨45, _⟩ => ⟨S4096, .f32⟩
  | .hbm, ⟨46, _⟩ => ⟨S_, .f32⟩
  | .hbm, ⟨47, _⟩ => ⟨S4096, .f32⟩
  | .hbm, ⟨48, _⟩ => ⟨S4096, .f32⟩
  | .hbm, ⟨49, _⟩ => ⟨S4096, .f32⟩
  | .hbm, ⟨50, _⟩ => ⟨S4096, .f32⟩
  | .hbm, ⟨51, _⟩ => ⟨S_, .f32⟩
  | .hbm, ⟨52, _⟩ => ⟨S4096x32000, .f32⟩
  | .hbm, ⟨53, _⟩ => ⟨S4096x32000, .f32⟩
  | .hbm, ⟨54, _⟩ => ⟨S_, .f32⟩
  | .hbm, ⟨55, _⟩ => ⟨S4096x32000, .f32⟩
  | .hbm, ⟨56, _⟩ => ⟨S4096x32000, .f32⟩
  | .hbm, ⟨57, _⟩ => ⟨S_, .f32⟩
  | .hbm, ⟨58, _⟩ => ⟨S4096x32000, .f32⟩
  | .hbm, ⟨59, _⟩ => ⟨S4096x32000, .f32⟩
  | .hbm, ⟨60, _⟩ => ⟨S4096x32000, .f32⟩
  | .hbm, ⟨61, _⟩ => ⟨S4096x32000, .f32⟩
  | .hbm, ⟨62, _⟩ => ⟨S32000, .i32⟩
  | .hbm, ⟨63, _⟩ => ⟨S1x32000, .i32⟩
  | .hbm, ⟨64, _⟩ => ⟨S4096x1, .i32⟩
  | .hbm, ⟨65, _⟩ => ⟨S4096x32000, .i32⟩
  | .hbm, ⟨66, _⟩ => ⟨S4096x32000, .i32⟩
  | .hbm, ⟨67, _⟩ => ⟨S4096x32000, .i1⟩
  | .hbm, ⟨68, _⟩ => ⟨S_, .f32⟩
  | .hbm, ⟨69, _⟩ => ⟨S_, .f32⟩
  | .hbm, ⟨70, _⟩ => ⟨S4096x32000, .f32⟩
  | .hbm, ⟨71, _⟩ => ⟨S4096x32000, .f32⟩
  | .hbm, ⟨72, _⟩ => ⟨S_, .f32⟩
  | .hbm, ⟨73, _⟩ => ⟨S4096, .f32⟩
  | .hbm, ⟨74, _⟩ => ⟨S4096, .f32⟩
  | .hbm, ⟨75, _⟩ => ⟨S4096, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S_, .f32⟩
  | _, _ => ⟨S4096x32000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_call0_c : Ref sig .tc := ⟨.hbm, 17, rfl⟩
abbrev main_call0_v0 : Ref sig .tc := ⟨.hbm, 18, rfl⟩
abbrev main_call0_v1 : Ref sig .tc := ⟨.hbm, 19, rfl⟩
abbrev main_call0_c_0 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_v5 : Ref sig .tc := ⟨.hbm, 24, rfl⟩
abbrev main_call0_c_1 : Ref sig .tc := ⟨.hbm, 25, rfl⟩
abbrev main_call0_c_2 : Ref sig .tc := ⟨.hbm, 26, rfl⟩
abbrev main_call0_v6 : Ref sig .tc := ⟨.hbm, 27, rfl⟩
abbrev main_call0_v7 : Ref sig .tc := ⟨.hbm, 28, rfl⟩
abbrev main_call0_v8 : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_call0_c_3 : Ref sig .tc := ⟨.hbm, 33, rfl⟩
abbrev main_call0_v12 : Ref sig .tc := ⟨.hbm, 34, rfl⟩
abbrev main_call0_v13 : Ref sig .tc := ⟨.hbm, 35, rfl⟩
abbrev main_call0_cst : Ref sig .tc := ⟨.hbm, 36, rfl⟩
abbrev main_call0_v14 : Ref sig .tc := ⟨.hbm, 37, rfl⟩
abbrev main_v12 : Ref sig .tc := ⟨.hbm, 38, rfl⟩
abbrev main_v13 : Ref sig .tc := ⟨.hbm, 39, rfl⟩
abbrev main_cst_2 : Ref sig .tc := ⟨.hbm, 40, rfl⟩
abbrev main_v14 : Ref sig .tc := ⟨.hbm, 41, rfl⟩
abbrev main_v15 : Ref sig .tc := ⟨.hbm, 42, rfl⟩
abbrev main_cst_3 : Ref sig .tc := ⟨.hbm, 43, rfl⟩
abbrev main_v16 : Ref sig .tc := ⟨.hbm, 44, rfl⟩
abbrev main_v17 : Ref sig .tc := ⟨.hbm, 45, rfl⟩
abbrev main_cst_4 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_cst_5 : Ref sig .tc := ⟨.hbm, 51, rfl⟩
abbrev main_v22 : Ref sig .tc := ⟨.hbm, 52, rfl⟩
abbrev main_v23 : Ref sig .tc := ⟨.hbm, 53, rfl⟩
abbrev main_cst_6 : Ref sig .tc := ⟨.hbm, 54, rfl⟩
abbrev main_v24 : Ref sig .tc := ⟨.hbm, 55, rfl⟩
abbrev main_v25 : Ref sig .tc := ⟨.hbm, 56, rfl⟩
abbrev main_cst_7 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_cst_8 : Ref sig .tc := ⟨.hbm, 68, rfl⟩
abbrev main_call1_v0 : Ref sig .tc := ⟨.hbm, 69, rfl⟩
abbrev main_call1_v1 : Ref sig .tc := ⟨.hbm, 70, rfl⟩
abbrev main_v36 : Ref sig .tc := ⟨.hbm, 71, rfl⟩
abbrev main_cst_9 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_cst_10 : Ref sig .tc := ⟨.hbm, 76, rfl⟩
abbrev main_v40 : Ref sig .tc := ⟨.hbm, 77, rfl⟩
abbrev main_cst_11 : Ref sig .tc := ⟨.hbm, 78, rfl⟩
abbrev main_v41 : Ref sig .tc := ⟨.hbm, 79, rfl⟩

abbrev nD : Nat := 1
abbrev τ : Topo := Topo.v7x

variable {F : FTy → Type} [FloatOps F]

class Facts₀ : Prop where
  reducesTo_S4096x32000_S4096_d1 : S4096x32000.ReducesTo [1] S4096
  h_S_ : 0 < S_.numel
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x32000_0_1 : S4096x1.BroadcastsInDim S4096x32000 (![0, 1] : Fin 2 → Fin S4096x32000.rank)
  bcast_S_S4096x1 : S_.BroadcastsInDim S4096x1 (![] : Fin 0 → Fin S4096x1.rank)
  shapeCasts_S4096x1_S4096x1x1 : S4096x1.ShapeCasts S4096x1x1
  bcast_S_S4096x1x1 : S_.BroadcastsInDim S4096x1x1 (![] : Fin 0 → Fin S4096x1x1.rank)
  bcast_S1_S1x1x1_2 : S1.BroadcastsInDim S1x1x1 (![2] : Fin 1 → Fin S1x1x1.rank)
  bcast_S1x1x1_S4096x1x1_0_1_2 : S1x1x1.BroadcastsInDim S4096x1x1 (![0, 1, 2] : Fin 3 → Fin S4096x1x1.rank)
  reducesTo_S4096x1x1_S4096x1_d2 : S4096x1x1.ReducesTo [2] S4096x1
  shapeCasts_S4096x1_S4096 : S4096x1.ShapeCasts S4096
  bcast_S_S4096x32000 : S_.BroadcastsInDim S4096x32000 (![] : Fin 0 → Fin S4096x32000.rank)
  bcast_S32000_S1x32000_1 : S32000.BroadcastsInDim S1x32000 (![1] : Fin 1 → Fin S1x32000.rank)
  bcast_S1x32000_S4096x32000_0_1 : S1x32000.BroadcastsInDim S4096x32000 (![0, 1] : Fin 2 → Fin S4096x32000.rank)
  reducesTo_S4096_S_d0 : S4096.ReducesTo [0] S_
  gather_S4096x32000_S4096x1x1_S4096x1_n_1_0_0_1_2_11_wf : GatherDims.WF S4096x32000 S4096x1x1 S4096x1 [] [1] [0] [1] [0] 2 ![1, 1]

variable [Facts₀]

def gather_S4096x32000_S4096x1x1_S4096x1_n_1_0_0_1_2_11 : GatherDims S4096x32000 S4096x1x1 S4096x1 where
  offsetDims := []
  collapsedSliceDims := [1]
  operandBatchingDims := [0]
  startIndicesBatchingDims := [0]
  startIndexMap := [1]
  indexVectorDim := 2
  sliceSizes := ![1, 1]
  wf := gather_S4096x32000_S4096x1x1_S4096x1_n_1_0_0_1_2_11_wf

class Facts : Prop extends Facts₀ where

variable [Facts]
-- ==== Proof.Pre.lean ====
/-
  What the precondition says of the two inputs: every logit is a real number, and every class word, read as a
  natural number, is below 32000.
-/
import proofs.«430663_j9826885174161_3_alg».proof.Pre_finite_inputs
import proofs.«430663_j9826885174161_3_alg».proof.Proof.Gen.Pre_finite_inputs
import Idealize.ShloMosaic.Lib.ReduceAll
import Idealize.ShloMosaic.Lib.ValueIdx
import Idealize.ShloMosaic.Lib.Affine
import Idealize.ShloMosaic.Lib.StableHlo.Predicate
import Idealize.ShloMosaic.PureOps.Ideal.Laws

noncomputable section

namespace Cert.Pre_finite_inputs.Hand

open Idealize.ShloMosaic Idealize.ShloMosaic.ValueIdx Idealize.ShloMosaic.StableHlo
open Cert.Pre_finite_inputs Cert.Pre_finite_inputs.Gen

instance : Subsingleton S_.Idx := ⟨fun a b => funext fun d => d.elim0⟩

/-- A word that is at least 0 and below 32000 as a signed number is below 32000 as a natural number. -/
theorem word_range {w : BitVec 32} (h0 : IntOp.cmpi .sge w 0#32 = 1#1) (h1 : IntOp.cmpi .slt w 32000#32 = 1#1) :
    w.toNat < 32000 := by
  simp only [IntOp.cmpi, Predicate.ofBool_eq_one_iff, BitVec.sle, BitVec.slt, decide_eq_true_eq] at h0 h1
  have e0 : (0#32 : BitVec 32).toInt = 0 := by decide
  have e1 : (32000#32 : BitVec 32).toInt = 32000 := by decide
  rw [e0] at h0; rw [e1] at h1
  rw [BitVec.toInt_eq_toNat_cond] at h0 h1
  split at h0 <;> omega

/-- An extended real whose absolute value is below +∞ is a real number. -/
theorem real_of_abs_lt (x : EReal) (h : FloatOps.cmpf (F := Ideal) (φ := .f32) .olt (FloatOps.absf x) (FloatOps.ofBits .f32 0x7F800000#32) = 1#1) :
    ∃ r : ℝ, x = (r : EReal) := by
  have htop : Ideal.ofBits .f32 0x7F800000#32 = ⊤ := by simp [Ideal.ofBits, Ideal.ieee]
  rw [Ideal.cmpf_def, Ideal.absf_def, Ideal.ofBits_def, htop] at h
  simp only [Ideal.cmp, Predicate.ofBool_eq_one_iff, decide_eq_true_eq] at h
  induction x using EReal.rec with
  | bot => simp at h
  | coe r => exact ⟨r, rfl⟩
  | top => simp at h

/-- The precondition, read. -/
theorem decode (x : FVec Ideal S4096x32000 .f32) (t : IVec S4096 32) (h : fn (F := Ideal) x t = fun _ => 1#1) :
    (∀ i, ∃ r : ℝ, x i = (r : EReal)) ∧ (∀ r : Fin 4096, (t (ix1 r)).toNat < 32000) := by
  have h0 := congrFun h ix0
  dsimp only [fn] at h0
  obtain ⟨h3, h9⟩ := IntOp.andi_eq_one.1 h0
  refine ⟨fun i => real_of_abs_lt (x i) (Host.reduce_andi_all _ _ _ _ _ h3 i), fun r => ?_⟩
  obtain ⟨ha, hb⟩ := IntOp.andi_eq_one.1 (Host.reduce_andi_all _ _ _ _ _ h9 (ix1 r))
  exact word_range ha hb

end Cert.Pre_finite_inputs.Hand

end
-- ==== Proof.RowLoss.lean ====
/-
  One row of the label-smoothed focal loss, written twice on the extended reals.

  A row is `f : Fin 32000 → EReal` (the logits of one sample) and `t` the sample's class. Both forms start from
  the softmax of the row, `P k = exp (f k - m) / s` with `m` the row's largest entry and `s = ∑ k, exp (f k - m)`,
  and end in `-(w₊ · (1 - P t)² · log (P t) + w₋ · ∑_{k ≠ t} (P k)² · log (1 - P k))`.

  `kernelRow` is the arrangement that multiplies by the reciprocal `1 / s`, takes `log (P t)` as
  `(f t - m) - log s`, picks `f t - m` out of the row by a one-hot sum, squares by a product, and gets the sum over
  `k ≠ t` as the full sum minus the term at `t` (guarded by `P t < 1`), the weight `w₋` applied once to the
  difference. `refRow` is the arrangement that divides by `s`, takes the logarithm of the quotient, squares by a
  power with exponent two, and sums the weighted terms with the one at `t` replaced by zero.

  The constants stay the words they are written as: `0x3F666666` is `w₊`, `0x3651B8C5` is `w₋`, `0x3F800000` is one,
  `0x40000000` is two, `0x00000000` is zero and `0xFF800000` is −∞.
-/
import Idealize.ShloMosaic.PureOps.Ideal

noncomputable section

namespace Cert.FocalRow

open Idealize.ShloMosaic

/-- A row's largest entry: the fold of `max` over the row from −∞. -/
def rowMax (f : Fin 32000 → EReal) : EReal :=
  (Finset.univ : Finset (Fin 32000)).fold max (Ideal.ofBits .f32 0xFF800000#32) f

/-- The row's loss, reciprocal-and-correction arrangement. -/
def kernelRow (f : Fin 32000 → EReal) (t : Fin 32000) : EReal :=
  let m : EReal := rowMax f
  let e : Fin 32000 → EReal := fun k => Ideal.exp (f k - m)
  let s : EReal := ∑ k, e k
  let inv : EReal := Ideal.div (Ideal.ofBits .f32 0x3F800000#32) s
  let sht : EReal := ∑ k, (if k = t then f k - m else Ideal.ofBits .f32 0x00000000#32)
  let pp : EReal := Ideal.exp sht * inv
  let omp : EReal := Ideal.ofBits .f32 0x3F800000#32 - pp
  let posl : EReal := (Ideal.ofBits .f32 0x3F666666#32 * (omp * omp)) * (sht - Ideal.log s)
  let P : Fin 32000 → EReal := fun k => e k * inv
  let fs : EReal := ∑ k, (P k * P k) * Ideal.log (Ideal.ofBits .f32 0x3F800000#32 - P k)
  let corr : EReal :=
    if pp < Ideal.ofBits .f32 0x3F800000#32 then (pp * pp) * Ideal.log (Ideal.ofBits .f32 0x3F800000#32 - pp)
    else Ideal.ofBits .f32 0x00000000#32
  let negl : EReal := Ideal.ofBits .f32 0x3651B8C5#32 * (fs - corr)
  Ideal.ofBits .f32 0x00000000#32 - (posl + negl)

/-- The row's loss, quotient-and-mask arrangement. -/
def refRow (f : Fin 32000 → EReal) (t : Fin 32000) : EReal :=
  let m : EReal := max (Ideal.ofBits .f32 0xFF800000#32) (rowMax f)
  let e : Fin 32000 → EReal := fun k => Ideal.exp (f k - m)
  let s : EReal := Ideal.ofBits .f32 0x00000000#32 + ∑ k, e k
  let P : Fin 32000 → EReal := fun k => Ideal.div (e k) s
  let pp : EReal := P t
  let posl : EReal :=
    (Ideal.ofBits .f32 0x3F666666#32
      * Ideal.pow (Ideal.ofBits .f32 0x3F800000#32 - pp) (Ideal.ofBits .f32 0x40000000#32)) * Ideal.log pp
  let negl : EReal := Ideal.ofBits .f32 0x00000000#32 + (∑ k,
    (if k = t then Ideal.ofBits .f32 0x00000000#32
     else (Ideal.ofBits .f32 0x3651B8C5#32 * Ideal.pow (P k) (Ideal.ofBits .f32 0x40000000#32))
            * Ideal.log (Ideal.ofBits .f32 0x3F800000#32 - P k)));
  -(posl + negl)

end Cert.FocalRow

end
-- ==== Proof.RowLossEq.lean ====
/-
  The two arrangements of a row's loss agree on a row of real numbers.

  On a row of reals the largest entry `m` is a real, so every `a k = exp (x k - m)` is a positive real and their sum
  `S` is a positive real. Each `P k = a k / S` lies strictly between 0 and 1 (there are at least two indices, and the
  others contribute positive terms to `S`), so `1 - P k > 0` and every logarithm that occurs is the logarithm of a
  positive real. Both arrangements are therefore the extended real of one real expression, and the two real
  expressions agree because `log (a t / S) = (x t - m) - log S`, a power with exponent two is a square, and the sum
  of the terms with the one at `t` replaced by zero is the full sum minus the term at `t`.
-/
import proofs.«430663_j9826885174161_3_alg».proof.Proof.RowLoss
import Idealize.ShloMosaic.Lib.IdealHost

noncomputable section

namespace Cert.FocalRow

open Idealize.ShloMosaic

/-! ### The constants -/

/-- The word `0x40000000` is the real two. -/
theorem ofBits_two_f32 : Ideal.ofBits .f32 0x40000000#32 = ((2 : ℝ) : EReal) := by
  simp [Ideal.ofBits, Ideal.ieee, -EReal.coe_mul]; norm_num

/-- The word `0xFF800000` is −∞. -/
theorem ofBits_neg_inf_f32 : Ideal.ofBits .f32 0xFF800000#32 = ⊥ := by
  simp [Ideal.ofBits, Ideal.ieee]

/-- The weight `w₊` is a real (a normal number's word). -/
theorem ofBits_wpos_real : ∃ w : ℝ, Ideal.ofBits .f32 0x3F666666#32 = (w : EReal) := by
  simp [Ideal.ofBits, Ideal.ieee, -EReal.coe_mul]

/-- The weight `w₋` is a real (a normal number's word). -/
theorem ofBits_wneg_real : ∃ w : ℝ, Ideal.ofBits .f32 0x3651B8C5#32 = (w : EReal) := by
  simp [Ideal.ofBits, Ideal.ieee, -EReal.coe_mul]

/-! ### A row of reals has a real largest entry -/

/-- The fold of `max` from −∞ over a nonempty family of reals is a real: the first entry absorbs −∞, and the maximum
    of two reals is a real. -/
theorem fold_max_real {ι : Type} [DecidableEq ι] (x : ι → ℝ) (s : Finset ι) (hs : s.Nonempty) :
    ∃ M : ℝ, s.fold max (⊥ : EReal) (fun k => (x k : EReal)) = (M : EReal) := by
  induction s using Finset.induction_on with
  | empty => exact absurd hs (by simp)
  | insert a s ha ih =>
    rw [Finset.fold_insert ha]
    rcases s.eq_empty_or_nonempty with h | h
    · subst h
      exact ⟨x a, by rw [Finset.fold_empty, max_eq_left bot_le]⟩
    · obtain ⟨M, hM⟩ := ih h
      exact ⟨max (x a) M, by rw [hM]; exact (EReal.coe_strictMono.monotone.map_max).symm⟩

/-- The largest entry of a row of reals is a real. -/
theorem rowMax_real (x : Fin 32000 → ℝ) : ∃ M : ℝ, rowMax (fun k => (x k : EReal)) = (M : EReal) := by
  unfold rowMax
  rw [ofBits_neg_inf_f32]
  exact fold_max_real x Finset.univ Finset.univ_nonempty

/-! ### Sums of reals inside the extended reals -/

/-- A finite sum of reals, taken in the extended reals, is the real sum. -/
theorem coe_sum_real {ι : Type} (s : Finset ι) (g : ι → ℝ) :
    ∑ k ∈ s, (g k : EReal) = ((∑ k ∈ s, g k : ℝ) : EReal) := by
  classical
  induction s using Finset.induction_on with
  | empty => simp
  | insert a s ha ih => rw [Finset.sum_insert ha, Finset.sum_insert ha, ih, EReal.coe_add]

/-- A choice between zero and a real is a real. -/
theorem coe_ite_zero (c : Prop) [Decidable c] (r : ℝ) :
    (if c then (0 : EReal) else (r : EReal)) = ((if c then 0 else r : ℝ) : EReal) := by
  split_ifs <;> rfl

/-- Among positive terms, with a second index present, each term is strictly below the total. -/
theorem lt_sum_of_pos {ι : Type} [Fintype ι] (a : ι → ℝ) (ha : ∀ k, 0 < a k) (k : ι) (h : ∃ j, j ≠ k) :
    a k < ∑ j, a j := by
  obtain ⟨j, hj⟩ := h
  exact Finset.single_lt_sum hj (Finset.mem_univ k) (Finset.mem_univ j) (ha j) (fun i _ _ => (ha i).le)

/-- The sum with the term at `t` replaced by zero is the full sum minus that term. -/
theorem sum_mask {ι : Type} [Fintype ι] [DecidableEq ι] (t : ι) (g : ι → ℝ) :
    (∑ k, if k = t then 0 else g k) = (∑ k, g k) - g t := by
  have h : ∀ k, (if k = t then 0 else g k) = g k - (if k = t then g k else 0) := fun k => by
    split_ifs <;> simp
  simp only [h, Finset.sum_sub_distrib, Finset.sum_ite_eq', Finset.mem_univ, if_true]

/-- The identity between the two real expressions: `p` the probabilities, `L k` standing for `log (1 - p k)`, `A`
    for `(x t - m) - log S` and `lp` for `log (p t)`, which are equal. -/
theorem real_identity {ι : Type} [Fintype ι] [DecidableEq ι] (p L : ι → ℝ) (t : ι) (wp wn A lp : ℝ)
    (hlp : lp = A) :
    0 - (wp * ((1 - p t) * (1 - p t)) * A + wn * (∑ k, p k * p k * L k - p t * p t * L t))
      = -(wp * (1 - p t) ^ 2 * lp + ∑ k, if k = t then 0 else wn * p k ^ 2 * L k) := by
  have hs : ∑ k, wn * p k ^ 2 * L k = wn * ∑ k, p k * p k * L k := by
    rw [Finset.mul_sum]
    exact Finset.sum_congr rfl (fun k _ => by ring)
  rw [sum_mask t (fun k => wn * p k ^ 2 * L k), hs, hlp]
  ring

/-! ### The two arrangements -/

/-- On a row of reals both arrangements are the same extended real. -/
theorem kernelRow_eq_refRow (x : Fin 32000 → ℝ) (t : Fin 32000) :
    kernelRow (fun k => (x k : EReal)) t = refRow (fun k => (x k : EReal)) t := by
  obtain ⟨M, hM⟩ := rowMax_real x
  obtain ⟨wp, hwp⟩ := ofBits_wpos_real
  obtain ⟨wn, hwn⟩ := ofBits_wneg_real
  -- the shifted entries are reals, their exponentials positive reals
  have hmax : max (⊥ : EReal) (M : EReal) = M := max_eq_right bot_le
  have hexp : ∀ k, Ideal.exp ((x k : EReal) - (M : EReal)) = ((Real.exp (x k - M) : ℝ) : EReal) := fun k => by
    rw [← EReal.coe_sub, Ideal.exp_coe]
  -- the one-hot sum picks the shifted entry at `t`
  have hsht : (∑ k, if k = t then (x k : EReal) - (M : EReal) else 0) = ((x t - M : ℝ) : EReal) := by
    rw [Finset.sum_ite_eq' Finset.univ t (fun k => (x k : EReal) - (M : EReal)), if_pos (Finset.mem_univ t),
      EReal.coe_sub]
  have hapos : ∀ k, 0 < Real.exp (x k - M) := fun k => Real.exp_pos _
  have hSpos : 0 < ∑ k, Real.exp (x k - M) := Finset.sum_pos (fun k _ => hapos k) Finset.univ_nonempty
  have hlt : ∀ k, Real.exp (x k - M) < ∑ j, Real.exp (x j - M) := fun k =>
    lt_sum_of_pos (fun k => Real.exp (x k - M)) hapos k (exists_ne k)
  simp only [kernelRow, refRow, hM, hwp, hwn, Ideal.ofBits_one_f32, Ideal.ofBits_zero_f32, ofBits_two_f32,
    ofBits_neg_inf_f32, hmax, hexp, hsht, zero_add, coe_sum_real]
  -- `S`, the sum of the exponentials: positive, and above each of them
  generalize hS : ∑ k, Real.exp (x k - M) = S at *
  have hS0 : S ≠ 0 := hSpos.ne'
  have hinv : Ideal.div 1 (S : EReal) = ((1 / S : ℝ) : EReal) := by
    rw [Ideal.div_coe hS0, one_mul]
  have hdiv : ∀ k, Ideal.div ((Real.exp (x k - M) : ℝ) : EReal) (S : EReal)
      = ((Real.exp (x k - M) * (1 / S) : ℝ) : EReal) := fun k => by
    rw [Ideal.div_coe hS0, EReal.coe_mul]
  simp only [hinv, hdiv, Ideal.exp_coe, ← EReal.coe_mul]
  -- the probabilities lie strictly between 0 and 1, so every logarithm is of a positive real
  have hp0 : ∀ k, 0 < Real.exp (x k - M) * (1 / S) := fun k => mul_pos (hapos k) (one_div_pos.mpr hSpos)
  have hp1 : ∀ k, Real.exp (x k - M) * (1 / S) < 1 := fun k => by
    rw [mul_one_div, div_lt_one hSpos]; exact hlt k
  have h1sub : ∀ r : ℝ, (1 : EReal) - (r : EReal) = ((1 - r : ℝ) : EReal) := fun r => by
    rw [EReal.coe_sub, EReal.coe_one]
  have hlogS : Ideal.log (S : EReal) = ((Real.log S : ℝ) : EReal) := by
    rw [Ideal.log_coe, if_neg (not_le.mpr hSpos)]
  have hlogp : ∀ k, Ideal.log ((Real.exp (x k - M) * (1 / S) : ℝ) : EReal)
      = ((Real.log (Real.exp (x k - M) * (1 / S)) : ℝ) : EReal) := fun k => by
    rw [Ideal.log_coe, if_neg (not_le.mpr (hp0 k))]
  have hlog1p : ∀ k, Ideal.log ((1 - Real.exp (x k - M) * (1 / S) : ℝ) : EReal)
      = ((Real.log (1 - Real.exp (x k - M) * (1 / S)) : ℝ) : EReal) := fun k => by
    rw [Ideal.log_coe, if_neg (not_le.mpr (sub_pos.mpr (hp1 k)))]
  have hguard : (((Real.exp (x t - M) * (1 / S) : ℝ) : EReal) < 1) := by
    rw [← EReal.coe_one, EReal.coe_lt_coe_iff]; exact hp1 t
  simp only [h1sub, hlogS, hlogp, hlog1p, if_pos hguard, Ideal.pow_coe_coe]
  -- both sides are now the extended real of a real expression
  simp only [← EReal.coe_mul, coe_ite_zero, coe_sum_real]
  rw [← EReal.coe_zero]
  simp only [← EReal.coe_mul, ← EReal.coe_sub, ← EReal.coe_add, ← EReal.coe_neg]
  have hlogpt : Real.log (Real.exp (x t - M) * (1 / S)) = (x t - M) - Real.log S := by
    rw [mul_one_div, Real.log_div (hapos t).ne' hS0, Real.log_exp]
  refine congrArg Real.toEReal ?_
  simp only [Real.rpow_eq_pow, Real.rpow_two]
  exact real_identity (fun k => Real.exp (x k - M) * (1 / S))
    (fun k => Real.log (1 - Real.exp (x k - M) * (1 / S))) t wp wn (x t - M - Real.log S)
    (Real.log (Real.exp (x t - M) * (1 / S))) hlogpt

end Cert.FocalRow

end
-- ==== Proof.KernelRow.lean ====
/-
  What the kernel's body stores for one row of its block is `kernelRow` of that row.

  The body works on a block of 64 rows of 32000 logits and a column of 64 class words. Every row quantity it forms
  (the row's largest entry, the sum of the shifted exponentials, the one-hot sum that picks the shifted entry at the
  class, the full sum of the squared probabilities times the logarithms of their complements) is a reduction along the
  columns kept as a 64 × 1 column and, where it is used entry by entry, spread back along the row. Read at row `p`:
  a column made from a vector is the vector at `p`; a column spread along a row is the column at `p`; a reduction
  along the columns is the fold or the sum over `k : Fin 32000` of the entries `(p, k)`; the column counter at
  `(p, k)` is the word of `k`, which equals the class word exactly when `k` is the class (both below 2³²). The
  arithmetic between them is entrywise, so the stored entry `(p, 0)` is `kernelRow` of row `p`, term for term.
-/
import proofs.«430663_j9826885174161_3_alg».proof.Proof.Gen.KernelIdeal.Frame
import proofs.«430663_j9826885174161_3_alg».proof.Proof.RowLoss
import Idealize.ShloMosaic.Lib.ValueIdx
import Idealize.ShloMosaic.Lib.Pipeline.Value
import Idealize.ShloMosaic.PureOps.Ideal.Laws

noncomputable section

namespace Cert.KernelIdeal.Hand

open Idealize.ShloMosaic Idealize.ShloMosaic.TcCoe Idealize.ShloMosaic.ValueIdx
open Cert.KernelIdeal Cert.KernelIdeal.Gen

/-! ## Columns: a vector stood up as a column, a column spread along the rows -/

section Layout
variable {α : Type}

/-- An `[a]` vector cast to an `[a, 1]` column reads, at `(i, u)`, the vector at `i`: the two row-major positions
    are `i` and `i · 1 + u` with `u = 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at `(p, 0)`: the row coordinate is kept
    (it is `0` already when `a = 1`), the unit axis reads `0`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## Reductions along the columns, read at a row -/

/-- The index of row `p` with the column `k` put back in is `(p, k)`. -/
theorem lift_row {a b : ℕ} (h : (⟨2, ![a, b]⟩ : Shape).Reduces [1] ⟨1, ![a]⟩) (p : Fin a) (k : Fin b) :
    h.lift (ix1 p) k = ix2 p k := by
  funext c
  apply Fin.ext
  match c with
  | ⟨0, _⟩ => rfl
  | ⟨1, _⟩ => rfl

/-- The maximum along the columns from −∞, read at row `p`, is the row's largest entry. -/
theorem rowMax_read (v : FVec Ideal S64x32000 .f32) (h : S64x32000.Reduces [1] S64) (hφ : FKind.Formats .f32)
    (hacc : (0xFF800000#32 : BitVec 32) = FKind.maximumf.neutral .f32 hφ) (p : Fin 64) :
    multiReduction (F := Ideal) .maximumf [1] S64 v 0xFF800000#32 h hφ hacc (ix1 p)
      = Cert.FocalRow.rowMax (fun k => v (ix2 p k)) := by
  refine (Ideal.multiReduction_maximumf_single v _ h hφ hacc (ix1 p)).trans ?_
  unfold Cert.FocalRow.rowMax
  exact congrArg (fun f => (Finset.univ : Finset (Fin 32000)).fold max (Ideal.ofBits .f32 0xFF800000#32) f)
    (funext fun k => congrArg v (lift_row h p k))

/-- The sum along the columns, read at row `p`, is the sum of the row's entries. -/
theorem rowSum_read (v : FVec Ideal S64x32000 .f32) (h : S64x32000.Reduces [1] S64) (hφ : FKind.Formats .f32)
    (hacc : (0x00000000#32 : BitVec 32) = FKind.add.neutral .f32 hφ) (p : Fin 64) :
    multiReduction (F := Ideal) .add [1] S64 v 0x00000000#32 h hφ hacc (ix1 p)
      = ∑ k : Fin 32000, v (ix2 p k) := by
  refine (Ideal.multiReduction_add_single v _ h hφ hacc (ix1 p)).trans ?_
  exact Finset.sum_congr rfl fun k _ => congrArg v (lift_row h p k)

/-! ## The two conditions: the one-hot and the guard -/

/-- A one-bit flag made from a truth value is set exactly when the value is true. -/
theorem ofBool_one_iff (b : Bool) : BitVec.ofBool b = 1 ↔ b = true := by cases b <;> decide

/-- A choice on "the word of column `k` equals the class word `w`" is the choice on `k` being the class: `k` is below
    32000 and so below 2³², where a number and its word determine each other. -/
theorem select_onehot {β : Type} (k : Fin 32000) (w : BitVec 32) (ht : w.toNat < 32000) (a b : β) :
    Scalar.select (IntOp.cmpi .eq (BitVec.ofNat 32 k.val) w) a b = if k = ⟨w.toNat, ht⟩ then a else b := by
  unfold Scalar.select
  refine if_congr ?_ rfl rfl
  have hk : (BitVec.ofNat 32 k.val).toNat = k.val := by
    rw [BitVec.toNat_ofNat]; exact Nat.mod_eq_of_lt (by have := k.isLt; omega)
  show BitVec.ofBool (BitVec.ofNat 32 k.val == w) = 1 ↔ _
  rw [ofBool_one_iff, beq_iff_eq]
  constructor
  · intro e
    apply Fin.ext
    show k.val = w.toNat
    rw [← e, hk]
  · intro h
    apply BitVec.eq_of_toNat_eq
    rw [hk, h]

/-- A choice on the ordered comparison "`a` is below `b`" is the choice on `a < b`. -/
theorem select_lt {β : Type} (a b : EReal) (u v : β) :
    Scalar.select (Ideal.cmp .olt a b) u v = if a < b then u else v := by
  unfold Scalar.select
  refine if_congr ?_ rfl rfl
  show BitVec.ofBool (decide (a < b)) = 1 ↔ _
  rw [ofBool_one_iff, decide_eq_true_iff]

/-! ## The body's values, read at one row

Each value the body forms, at an entry of row `p`, from the values formed before it. -/

/-- An exponential of a vector reads the exponential of the entry. -/
theorem exp_apply {s : Shape} {φ : FTy} (a : FVec Ideal s φ) (i : s.Idx) : exp a i = Ideal.exp (a i) := rfl
/-- A logarithm of a vector reads the logarithm of the entry. -/
theorem log_apply {s : Shape} {φ : FTy} (a : FVec Ideal s φ) (i : s.Idx) : log a i = Ideal.log (a i) := rfl

/-- Entry (p, k) less the row's largest entry. -/
theorem pay2_apply (x0 : Vec Ideal S64x32000 .f32) (p : Fin 64) (k : Fin 32000) :
    k0_pay2 (F := Ideal) x0 (ix2 p k) = x0 (ix2 p k) - Cert.FocalRow.rowMax (fun k => x0 (ix2 p k)) := by
  unfold k0_pay2
  show x0 (ix2 p k) - broadcastTo S64x32000 (shapeCast S64x1
      (multiReduction (F := Ideal) .maximumf [1] S64 x0 0xFF800000#32 reduces_S64x32000_S64 (.inl rfl) rfl)
      shapeCasts_S64_S64x1) broadcasts_S64x1_S64x32000 (ix2 p k) = _
  exact congrArg (fun z => x0 (ix2 p k) - z)
    ((broadcastTo_a1_ab_apply _ _ p k).trans ((shapeCast_a_a1_apply _ _ p 0).trans (rowMax_read _ _ _ _ p)))

/-- Its exponential. -/
theorem pay3_apply (x0 : Vec Ideal S64x32000 .f32) (i : S64x32000.Idx) :
    k0_pay3 (F := Ideal) x0 i = Ideal.exp (k0_pay2 (F := Ideal) x0 i) := by
  unfold k0_pay3
  simp only [exp_apply]

/-- The row's sum of exponentials. -/
theorem pay4_apply (x0 : Vec Ideal S64x32000 .f32) (p : Fin 64) :
    k0_pay4 (F := Ideal) x0 (ix2 p (0 : Fin 1)) = ∑ k : Fin 32000, k0_pay3 (F := Ideal) x0 (ix2 p k) := by
  unfold k0_pay4
  exact (shapeCast_a_a1_apply _ _ p 0).trans (rowSum_read _ _ _ _ p)

/-- Its reciprocal. -/
theorem pay5_apply (x0 : Vec Ideal S64x32000 .f32) (i : S64x1.Idx) :
    k0_pay5 (F := Ideal) x0 i = Ideal.div (Ideal.ofBits .f32 0x3F800000#32) (k0_pay4 (F := Ideal) x0 i) := by
  unfold k0_pay5
  simp only [divf_apply, broadcast_apply, Ideal.ofBits_def]

/-- The one-hot sum: the shifted entry at the row's class. -/
theorem pay6_apply (x0 : Vec Ideal S64x32000 .f32) (x1 : Vec Ideal S64x1 .i32) (p : Fin 64)
    (ht : (x1 (ix2 p (0 : Fin 1))).toNat < 32000) :
    k0_pay6 (F := Ideal) x0 x1 (ix2 p (0 : Fin 1))
      = ∑ k : Fin 32000, (if k = ⟨(x1 (ix2 p (0 : Fin 1))).toNat, ht⟩ then k0_pay2 (F := Ideal) x0 (ix2 p k)
          else Ideal.ofBits .f32 0x00000000#32) := by
  unfold k0_pay6
  refine (shapeCast_a_a1_apply _ _ p 0).trans ?_
  refine (rowSum_read _ _ _ _ p).trans ?_
  refine Finset.sum_congr rfl fun k _ => ?_
  show Scalar.select (IntOp.cmpi .eq (iota .tc S64x32000 32 [1] iota_S64x32000_d1_w32 (ix2 p k))
      (broadcastTo S64x32000 (shapeCast S64x1 x1 shapeCasts_S64x1_S64x1) broadcasts_S64x1_S64x32000 (ix2 p k)))
      (k0_pay2 (F := Ideal) x0 (ix2 p k)) (Ideal.ofBits .f32 0x00000000#32) = _
  rw [iota_single_apply, broadcastTo_a1_ab_apply, shapeCast_self]
  exact select_onehot k _ ht _ _

/-- The class's probability. -/
theorem pay7_apply (x0 : Vec Ideal S64x32000 .f32) (x1 : Vec Ideal S64x1 .i32) (i : S64x1.Idx) :
    k0_pay7 (F := Ideal) x0 x1 i = Ideal.exp (k0_pay6 (F := Ideal) x0 x1 i) * k0_pay5 (F := Ideal) x0 i := by
  unfold k0_pay7
  simp only [mulf_apply, exp_apply]

/-- The class's term. -/
theorem pay8_apply (x0 : Vec Ideal S64x32000 .f32) (x1 : Vec Ideal S64x1 .i32) (i : S64x1.Idx) :
    k0_pay8 (F := Ideal) x0 x1 i
      = (Ideal.ofBits .f32 0x3F666666#32
          * ((Ideal.ofBits .f32 0x3F800000#32 - k0_pay7 (F := Ideal) x0 x1 i)
              * (Ideal.ofBits .f32 0x3F800000#32 - k0_pay7 (F := Ideal) x0 x1 i)))
        * (k0_pay6 (F := Ideal) x0 x1 i - Ideal.log (k0_pay4 (F := Ideal) x0 i)) := by
  unfold k0_pay8
  simp only [mulf_apply, subf_apply, log_apply, broadcast_apply, Ideal.ofBits_def]

/-- The full sum over the row's classes. -/
theorem pay9_apply (x0 : Vec Ideal S64x32000 .f32) (p : Fin 64) :
    k0_pay9 (F := Ideal) x0 (ix2 p (0 : Fin 1))
      = ∑ k : Fin 32000,
          ((k0_pay3 (F := Ideal) x0 (ix2 p k) * k0_pay5 (F := Ideal) x0 (ix2 p (0 : Fin 1)))
            * (k0_pay3 (F := Ideal) x0 (ix2 p k) * k0_pay5 (F := Ideal) x0 (ix2 p (0 : Fin 1))))
          * Ideal.log (Ideal.ofBits .f32 0x3F800000#32
              - k0_pay3 (F := Ideal) x0 (ix2 p k) * k0_pay5 (F := Ideal) x0 (ix2 p (0 : Fin 1))) := by
  unfold k0_pay9
  refine (shapeCast_a_a1_apply _ _ p 0).trans ?_
  refine (rowSum_read _ _ _ _ p).trans ?_
  refine Finset.sum_congr rfl fun k _ => ?_
  have hb : broadcastTo S64x32000 (k0_pay5 (F := Ideal) x0) broadcasts_S64x1_S64x32000 (ix2 p k)
      = k0_pay5 (F := Ideal) x0 (ix2 p (0 : Fin 1)) := broadcastTo_a1_ab_apply _ _ p k
  simp only [mulf_apply, subf_apply, log_apply, broadcast_apply, Ideal.ofBits_def, hb]

/-- The guard: the class's probability is below one. -/
theorem pay10_apply (x0 : Vec Ideal S64x32000 .f32) (x1 : Vec Ideal S64x1 .i32) (i : S64x1.Idx) :
    k0_pay10 (F := Ideal) x0 x1 i = Ideal.cmp .olt (k0_pay7 (F := Ideal) x0 x1 i) (Ideal.ofBits .f32 0x3F800000#32) := by
  unfold k0_pay10
  simp only [cmpf_apply, Ideal.cmpf_def, broadcast_apply, Ideal.ofBits_def]

/-- The class's probability squared. -/
theorem pay11_apply (x0 : Vec Ideal S64x32000 .f32) (x1 : Vec Ideal S64x1 .i32) (i : S64x1.Idx) :
    k0_pay11 (F := Ideal) x0 x1 i = k0_pay7 (F := Ideal) x0 x1 i * k0_pay7 (F := Ideal) x0 x1 i := by
  unfold k0_pay11
  simp only [mulf_apply]

/-- The logarithm of its complement. -/
theorem pay12_apply (x0 : Vec Ideal S64x32000 .f32) (x1 : Vec Ideal S64x1 .i32) (i : S64x1.Idx) :
    k0_pay12 (F := Ideal) x0 x1 i = Ideal.log (Ideal.ofBits .f32 0x3F800000#32 - k0_pay7 (F := Ideal) x0 x1 i) := by
  unfold k0_pay12
  simp only [subf_apply, log_apply, broadcast_apply, Ideal.ofBits_def]

/-- The stored value from the five values it reads. -/
theorem pay1_apply (v28 v37 : FVec Ideal S64x1 .f32) (v39 : IVec S64x1 1) (v40 v43 : FVec Ideal S64x1 .f32) (i : S64x1.Idx) :
    k0_pay1 (F := Ideal) v28 v37 v39 v40 v43 i
      = Ideal.ofBits .f32 0x00000000#32
          - (v28 i + Ideal.ofBits .f32 0x3651B8C5#32
              * (v37 i - Scalar.select (v39 i) (v40 i * v43 i) (Ideal.ofBits .f32 0x00000000#32))) := by
  unfold k0_pay1
  simp only [mulf_apply, subf_apply, addf_apply, select_apply, broadcast_apply, Ideal.ofBits_def]

/-! ## The stored row -/

/-- Row `p` of the stored block, from the block of logits `x0` and the column of classes `x1`, when the row's class
    word is below 32000. -/
theorem out_row (x0 : Vec Ideal S64x32000 .f32) (x1 : Vec Ideal S64x1 .i32) (p : Fin 64)
    (ht : (x1 (ix2 p (0 : Fin 1))).toNat < 32000) :
    out0_2 (F := Ideal) x0 x1 (ix2 p (0 : Fin 1))
      = Cert.FocalRow.kernelRow (fun k => x0 (ix2 p k)) ⟨(x1 (ix2 p (0 : Fin 1))).toNat, ht⟩ := by
  have hz : (![0, 0] : Fin 2 → Nat) = fun _ => 0 := funext fun a => by fin_cases a <;> rfl
  unfold out0_2
  rw [View.canon_unit_zero hz]
  simp only [View.ld_unit_zero (S := S64x32000) hz, View.ld_unit_zero (S := S64x1) hz]
  rw [pay1_apply]
  simp only [pay8_apply, pay9_apply, pay10_apply, pay11_apply, pay12_apply, pay7_apply, pay6_apply x0 x1 p ht,
    pay5_apply, pay4_apply, pay3_apply, pay2_apply, select_lt]
  unfold Cert.FocalRow.kernelRow
  dsimp only

end Cert.KernelIdeal.Hand

end
-- ==== Proof.KernelValue.lean ====
/-
  The kernel's loss column after the run, row by row, and the mean the program returns.
-/
import proofs.«430663_j9826885174161_3_alg».proof.Proof.Gen.KernelIdeal.Frame
import proofs.«430663_j9826885174161_3_alg».proof.Proof.RowLoss
import proofs.«430663_j9826885174161_3_alg».proof.Proof.KernelRow
import Idealize.ShloMosaic.Lib.ValueIdx
import Idealize.ShloMosaic.Lib.IdealHost
import Idealize.ShloMosaic.Lib.Pipeline.Value
import Idealize.ShloMosaic.Lib.StableHlo.Run
import Idealize.ShloMosaic.PureOps.Ideal.Laws

noncomputable section

namespace Cert.KernelIdeal.Hand

open Idealize.ShloMosaic Idealize.ShloMosaic.TcCoe Idealize.ShloMosaic.ValueIdx Idealize.SL.Sem
open Idealize.ShloMosaic.Pipeline (Dat)
open Cert.KernelIdeal Cert.KernelIdeal.Gen

variable (m : (ℓ : Loc nD τ sig) → Buf (Elt Ideal) ℓ) (ρ : Dev nD → PrngReg)

/-- The logits as the program is given them. -/
abbrev logits (c : Dev nD) : S4096x32000.Idx → EReal := m ((c : Thread nD τ).loc main_arg0)
/-- The class words as the program is given them. -/
abbrev classes (c : Dev nD) : S4096.Idx → BitVec 32 := m ((c : Thread nD τ).loc main_arg1)

/-- The column of class words the region reads is the vector of class words, row by row. -/
theorem V_classes (c : Dev nD) (r : Fin 4096) :
    (V m c main_v0 : S4096x1.Idx → BitVec 32) (ix2 r (0 : Fin 1)) = classes m c (ix1 r) := by
  show StableHlo.after hostOps0 (fun b => m (c, b)) (Proc.devRef .tc main_v0) _ = _
  after_results
  show shapeCast S4096x1 (m (c, Proc.tc.devRef main_arg1)) shapeCasts_S4096_S4096x1 (ix2 r (0 : Fin 1)) = _
  refine shapeCast_apply _ _ _ (ix1 r) ?_
  rw [Shape.rowMajor_val_one, Shape.rowMajor_val_two]
  show r.val = r.val * 1 + 0
  omega

/-- The printed index maps over the grid: at point `t` every window's block is row block `t`, column block 0. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

theorem point_lt (t : Fin cfg0.N) : t.val < 64 := by
  have h : t.val < cfg0.N := t.isLt
  have hN : cfg0.N = 64 := N_0
  omega

/-- Row `p` of the block at point `t` is row `64 t + p` of the array. -/
def rowOf (t : Fin cfg0.N) (p : Fin 64) : Fin 4096 := ⟨64 * t.val + p.val, by have := point_lt t; have := p.isLt; omega⟩

/-- The block of logits at point `t`, entry by entry. -/
theorem iblk0_apply (c : Dev nD) (t : Fin cfg0.N) (p : Fin 64) (k : Fin 32000) :
    (iblk m c 0 t : Vec Ideal S64x32000 .f32) (ix2 p k) = logits m c (ix2 (rowOf t p) k) := by
  obtain ⟨e0, e1, -⟩ := idx_facts t
  unfold iblk
  rw [View.read_apply]
  show V m c main_arg0 _ = _
  rw [V_main_arg0]
  refine congrArg _ (funext fun a => Fin.ext ?_)
  match a with
  | ⟨0, _⟩ => show win0_0.index t (0 : Fin 2) * 64 + 1 * p.val = 64 * t.val + p.val; omega
  | ⟨1, _⟩ => show win0_0.index t (1 : Fin 2) * 32000 + 1 * k.val = k.val; omega

/-- The block of class words at point `t`, row by row. -/
theorem iblk1_apply (c : Dev nD) (t : Fin cfg0.N) (p : Fin 64) :
    (iblk m c 1 t : Vec Ideal S64x1 .i32) (ix2 p (0 : Fin 1)) = classes m c (ix1 (rowOf t p)) := by
  obtain ⟨-, -, e0, e1, -⟩ := idx_facts t
  rw [← V_classes m c (rowOf t p)]
  unfold iblk
  rw [View.read_apply]
  show V m c main_v0 _ = _
  refine congrArg _ (funext fun a => Fin.ext ?_)
  match a with
  | ⟨0, _⟩ => show win0_1.index t (0 : Fin 2) * 64 + 1 * p.val = 64 * t.val + p.val; omega
  | ⟨1, _⟩ => show win0_1.index t (1 : Fin 2) * 1 + 1 * 0 = 0; omega

/-- The loss column: row `r` holds `kernelRow` of that row's logits at the row's class, when every class word is
    below 32000. -/
def lossCol (c : Dev nD) (hT : ∀ r : Fin 4096, (classes m c (ix1 r)).toNat < 32000) : S4096x1.Idx → EReal :=
  fun i => Cert.FocalRow.kernelRow (fun k => logits m c (ix2 (i 0) k)) ⟨(classes m c (ix1 (i 0))).toNat, hT (i 0)⟩

theorem kernelRow_congr {f g : Fin 32000 → EReal} {s t : Fin 32000} (hf : ∀ k, f k = g k) (hst : s.val = t.val) :
    Cert.FocalRow.kernelRow f s = Cert.FocalRow.kernelRow g t := by
  obtain rfl : f = g := funext hf
  obtain rfl : s = t := Fin.ext hst
  rfl

/-- What point `t` writes back is rows `64 t … 64 t + 63` of the loss column. -/
theorem flushed_eq (c : Dev nD) (hT : ∀ r : Fin 4096, (classes m c (ix1 r)).toNat < 32000) (t : Fin cfg0.N) :
    (dats m 0 c).flushed 2 t = ((cfg0.win 2).blk t).view.read (Elt Ideal) (lossCol m c hT) := by
  obtain ⟨-, -, -, -, e0, e1⟩ := idx_facts t
  show (cfg0.win 2).cut (grid0.coords t) ((dats m 0 c).after 2 t) = _
  rw [after0_2]
  funext j
  obtain ⟨p, q, rfl⟩ : ∃ (p : Fin 64) (q : Fin 1), j = ix2 p q := ⟨j 0, j 1, eq_ix2 j⟩
  obtain rfl : q = 0 := Subsingleton.elim _ _
  show out0_2 (iblk m c 0 t) (iblk m c 1 t) (ix2 p (0 : Fin 1)) = lossCol m c hT (((cfg0.win 2).blk t).view.emb (ix2 p (0 : Fin 1)))
  have hrow : ((((cfg0.win 2).blk t).view.emb (ix2 p (0 : Fin 1))) 0).val = (rowOf t p).val := by
    show win0_2.index t (0 : Fin 2) * 64 + 1 * p.val = 64 * t.val + p.val; omega
  have ht : ((iblk m c 1 t : Vec Ideal S64x1 .i32) (ix2 p (0 : Fin 1))).toNat < 32000 := by
    rw [iblk1_apply]; exact hT _
  refine (out_row (iblk m c 0 t) (iblk m c 1 t) p ht).trans (kernelRow_congr (fun k => ?_) ?_)
  · rw [iblk0_apply]
    exact congrArg (logits m c) (funext fun a => Fin.ext (by
      match a with
      | ⟨0, _⟩ => exact hrow.symm
      | ⟨1, _⟩ => rfl))
  · show ((iblk m c 1 t : Vec Ideal S64x1 .i32) (ix2 p (0 : Fin 1))).toNat = _
    rw [iblk1_apply]
    exact congrArg (fun r : Fin 4096 => (classes m c (ix1 r)).toNat) (Fin.ext hrow.symm)

/-- An index of the loss column is in point `t`'s block iff each coordinate is in the block's range on its axis. -/
theorem mem_blk (t : Fin cfg0.N) (i : S4096x1.Idx) :
    i ∈ ((cfg0.win 2).blk t).view.set ↔ ∀ a : Fin 2, win0_2.index t a * S64x1.size a ≤ (i a).val ∧ (i a).val < win0_2.index t a * S64x1.size a + S64x1.size a := by
  show i ∈ ((View.whole main_v1).slice (win0_2.rect t)).set ↔ _
  rw [View.set_slice_whole, Rect.mem_set_unit]
  exact Iff.rfl

/-- The blocks of the 64 points tile the column (row `r` is in the block of point `r / 64`), so after the run the
    array is the loss column. -/
theorem final (c : Dev nD) (hT : ∀ r : Fin 4096, (classes m c (ix1 r)).toNat < 32000) :
    (dats m 0 c).arrAt 2 cfg0.N = lossCol m c hT :=
  (dats m 0 c).arrAt_eq_of_cover 2 (lossCol m c hT) (fun t _ => flushed_eq m c hT t) fun i => by
    have hi0 : (i 0).val < 4096 := (i 0).isLt
    have hi1 : (i 1).val < 1 := (i 1).isLt
    have hN : cfg0.N = 64 := N_0
    refine ⟨⟨(i 0).val / 64, by omega⟩, flush0_2 _, ?_⟩
    rw [mem_blk]
    obtain ⟨-, -, -, -, e0, e1⟩ := idx_facts ⟨(i 0).val / 64, by omega⟩
    intro a
    match a with
    | ⟨0, _⟩ =>
      show win0_2.index ⟨(i 0).val / 64, _⟩ (0 : Fin 2) * 64 ≤ (i 0).val ∧ (i 0).val < win0_2.index ⟨(i 0).val / 64, _⟩ (0 : Fin 2) * 64 + 64
      rw [e0]; show (i 0).val / 64 * 64 ≤ (i 0).val ∧ (i 0).val < (i 0).val / 64 * 64 + 64; omega
    | ⟨1, _⟩ =>
      show win0_2.index ⟨(i 0).val / 64, _⟩ (1 : Fin 2) * 1 ≤ (i 1).val ∧ (i 1).val < win0_2.index ⟨(i 0).val / 64, _⟩ (1 : Fin 2) * 1 + 1
      rw [e1]; omega

/-- The program's result: the sum, from zero, of the rows' losses, divided by 4096. -/
theorem result_eq (c : Dev nD) (hT : ∀ r : Fin 4096, (classes m c (ix1 r)).toNat < 32000) :
    Pipeline.afterTail₀ cfgs (dats m) 0 (V0 m) [hostOps1] c main_v3
      = fun _ => Ideal.div (Ideal.ofBits .f32 0x00000000#32
          + ∑ r : Fin 4096, Cert.FocalRow.kernelRow (fun k => logits m c (ix2 r k)) ⟨(classes m c (ix1 r)).toNat, hT r⟩)
          (Ideal.ofBits .f32 0x45800000#32) := by
  unfold Pipeline.afterTail₀
  show StableHlo.after hostOps1 _ (Proc.devRef .tc main_v3) = _
  after_results
  rw [show Pipeline.withArrays (cfgs 0).spec c (V0 m c) (fun w => (dats m 0 c).arrAt w (cfgs 0).N) (Proc.tc.devRef main_v1)
      = lossCol m c hT from (Pipeline.withArrays_arr spec0 launch0.win.arr_inj c _ _ 2).trans (final m c hT)]
  funext j
  rw [hostDivf_apply, hostReduceAdd_apply, Ideal.hostReduceAdd_total _ (fun b => b.elim0), sum_idx2]
  simp only [Fin.sum_univ_one]
  rfl

/-- The run, read: the program's result is the mean of the rows' losses, and its two arguments end as they began. -/
theorem run (hT : ∀ (c : Dev nD) (r : Fin 4096), (classes m c (ix1 r)).toNat < 32000) :
    θ_run defs (onTc (τ := τ) (main (F := Ideal))) ⟨m, fun _ => 0, ρ⟩ fun r => ∀ c : Dev nD,
      r.2.mem ((c.tc : Thread nD τ).loc main_v3)
        = (fun _ => Ideal.div (Ideal.ofBits .f32 0x00000000#32
            + ∑ r : Fin 4096, Cert.FocalRow.kernelRow (fun k => logits m c (ix2 r k)) ⟨(classes m c (ix1 r)).toNat, hT c r⟩)
            (Ideal.ofBits .f32 0x45800000#32))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v3 (Pipeline.mem_restRefs_of main_v3 (by decide) (by decide))).trans (result_eq m c (hT c)),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c)⟩)
    (run_main m ρ)

end Cert.KernelIdeal.Hand

end
-- ==== Proof.RefRow.lean ====
/-
  What the reference computes for one sample, before the mean, is `refRow` of that sample's row.

  The stages are read at sample `r` (and class `k`) one at a time: the row maximum as a fold of `max` over the
  row; the shifted exponentials, their sum and the quotients; then the class word `w` of the sample, which below
  32000 passes the negative-index wrap, the range test `0 ≤ w ≤ 31999` and the gather's clamp unchanged, so that
  the gathered probability is the softmax at column `w`; the class mask, set exactly at column `w`; and last the
  two weighted terms and their negated sum.
-/
import proofs.«430663_j9826885174161_3_alg».proof.Proof.Gen.ReferenceIdeal.Read
import proofs.«430663_j9826885174161_3_alg».proof.Proof.RowLoss
import Idealize.ShloMosaic.Lib.ValueIdx
import Idealize.ShloMosaic.Lib.IdealHost
import Idealize.ShloMosaic.Lib.Pipeline.Value
import Idealize.ShloMosaic.PureOps.Ideal.Laws
import Idealize.ShloMosaic.PureOps.Reduce
import Idealize.ShloMosaic.Lib.StableHlo.Predicate

noncomputable section

namespace Cert.ReferenceIdeal.Hand

open Idealize.ShloMosaic Idealize.ShloMosaic.TcCoe Idealize.ShloMosaic.ValueIdx
open Cert.ReferenceIdeal Cert.ReferenceIdeal.Gen Cert.ReferenceIdeal.Read

/-- Dropping the class axis of the logits' shape leaves the samples' shape. -/
theorem red1 : S4096x32000.Reduces [1] S4096 := by decide

/-- Sample `r` with class `k` put back on the dropped axis is the index `(r, k)`. -/
theorem lift1 (r : Fin 4096) (k : Fin 32000) : red1.lift (ix1 r) k = ix2 r k := by
  funext a; apply Fin.ext
  match a with
  | ⟨0, _⟩ => rfl
  | ⟨1, _⟩ => rfl

section Row

variable (x0 : (⟨S4096x32000, .f32⟩ : BufTy).Contents (Elt Ideal)) (x1 : (⟨S4096, .i32⟩ : BufTy).Contents (Elt Ideal))
  (r : Fin 4096)

/-- The row maximum at sample `r` is the fold of `max` over the row from −∞. -/
theorem v0_row : val_main_v0 (F := Ideal) x0 (ix1 r) = Cert.FocalRow.rowMax (fun k => x0 (ix2 r k)) := by
  unfold val_main_v0
  refine (Host.reduce_eq_fold_single (α := Ideal .f32) (FloatOps.maximumf (F := Ideal) (φ := .f32)) x0
    (val_main_cst (F := Ideal)) reducesTo_S4096x32000_S4096_d1 red1 h_S_ (ix1 r)).trans ?_
  unfold Cert.FocalRow.rowMax
  show Finset.fold max (Ideal.ofBits .f32 0xFF800000#32) (fun k : Fin 32000 => x0 (red1.lift (ix1 r) k)) Finset.univ = _
  simp only [lift1]

/-- The shift of row `r`: the larger of −∞ and the row maximum. -/
theorem v2_row : val_main_v2 (F := Ideal) x0 (ix1 r)
    = max (Ideal.ofBits .f32 0xFF800000#32) (Cert.FocalRow.rowMax (fun k => x0 (ix2 r k))) := by
  rw [val_main_v2_apply, val_main_v1_apply, val_main_cst_0_apply, v0_row]; rfl

/-- The exponential of the shifted logit at `(r, k)`. -/
theorem v6_at (k : Fin 32000) : val_main_v6 (F := Ideal) x0 (ix2 r k)
    = Ideal.exp (x0 (ix2 r k) - max (Ideal.ofBits .f32 0xFF800000#32) (Cert.FocalRow.rowMax (fun k => x0 (ix2 r k)))) := by
  rw [val_main_v6_apply, val_main_v5_apply, val_main_v4_apply, val_main_v3_apply]
  have h : idx_main_v3 (idx_main_v4 (ix2 r k)) = ix1 r := by
    funext a; match a with | ⟨0, _⟩ => rfl
  rw [h, v2_row]; rfl

/-- The normalizer of row `r`: zero plus the sum of the row's exponentials. -/
theorem v7_row : val_main_v7 (F := Ideal) x0 (ix1 r)
    = Ideal.ofBits .f32 0x00000000#32 + ∑ k : Fin 32000,
        Ideal.exp (x0 (ix2 r k) - max (Ideal.ofBits .f32 0xFF800000#32) (Cert.FocalRow.rowMax (fun k => x0 (ix2 r k)))) := by
  rw [val_main_v7_apply, val_main_cst_1_apply]
  refine congrArg (_ + ·) (Finset.sum_congr rfl fun k _ => ?_)
  have h : idx_main_v7 (ix1 r) k = ix2 r k := by
    funext a; match a with | ⟨0, _⟩ => rfl | ⟨1, _⟩ => rfl
  rw [h, v6_at]

/-- The softmax probability at `(r, k)`. -/
theorem v10_at (k : Fin 32000) : val_main_v10 (F := Ideal) x0 (ix2 r k)
    = Ideal.div (Ideal.exp (x0 (ix2 r k) - max (Ideal.ofBits .f32 0xFF800000#32) (Cert.FocalRow.rowMax (fun k => x0 (ix2 r k)))))
        (Ideal.ofBits .f32 0x00000000#32 + ∑ k : Fin 32000,
          Ideal.exp (x0 (ix2 r k) - max (Ideal.ofBits .f32 0xFF800000#32) (Cert.FocalRow.rowMax (fun k => x0 (ix2 r k))))) := by
  rw [val_main_v10_apply, val_main_v9_apply, val_main_v8_apply]
  have h : idx_main_v8 (idx_main_v9 (ix2 r k)) = ix1 r := by
    funext a; match a with | ⟨0, _⟩ => rfl
  rw [h, v7_row, v6_at]; rfl

end Row

section Class

open Idealize.ShloMosaic.StableHlo.Predicate

variable (x1 : (⟨S4096, .i32⟩ : BufTy).Contents (Elt Ideal)) (r : Fin 4096)

/-- With the class word below 32000 the negative-index wrap leaves it alone. -/
theorem call0_v4_at (ht : (x1 (ix1 r)).toNat < 32000) :
    val_main_call0_v4 (F := Ideal) x1 (ix2 r (0 : Fin 1)) = x1 (ix1 r) := by
  rw [val_main_call0_v4_apply, val_main_call0_v1_apply, val_main_v11_apply, val_main_call0_v0_apply,
    val_main_call0_c_apply]
  have h : idx_main_v11 (ix2 r (0 : Fin 1)) = ix1 r := by
    funext a; match a with | ⟨0, _⟩ => rfl
  rw [h]
  have hlt : ¬ IntOp.cmpi .slt (x1 (ix1 r)) 0#32 = 1#1 := by
    rw [slt_iff_toNat (by omega) (by decide)]; exact Nat.not_lt_zero _
  exact if_neg hlt

/-- The start index of sample `r` is its class word. -/
theorem call0_v5_at (ht : (x1 (ix1 r)).toNat < 32000) :
    val_main_call0_v5 (F := Ideal) x1 (ix3 r (0 : Fin 1) (0 : Fin 1)) = x1 (ix1 r) := by
  rw [val_main_call0_v5_apply]
  have h : idx_main_call0_v5 (ix3 r (0 : Fin 1) (0 : Fin 1)) = ix2 r (0 : Fin 1) := by
    funext a
    match a with
    | ⟨0, _⟩ => exact Fin.ext (by show ((r.val * 1 + 0) * 1 + 0) / 1 = r.val; omega)
    | ⟨1, _⟩ => rfl
  rw [h, call0_v4_at x1 r ht]

/-- With the class word below 32000 the range test `0 ≤ w ≤ 31999` holds. -/
theorem call0_v11_at (ht : (x1 (ix1 r)).toNat < 32000) :
    val_main_call0_v11 (F := Ideal) x1 (ix3 r (0 : Fin 1) (0 : Fin 1)) = 1#1 := by
  rw [val_main_call0_v11_apply, val_main_call0_v7_apply, val_main_call0_v10_apply, call0_v5_at x1 r ht,
    val_main_call0_v6_apply, val_main_call0_c_2_apply, val_main_call0_v9_apply, val_main_call0_v8_apply,
    val_main_call0_c_1_apply]
  have h1 : IntOp.cmpi .sge (x1 (ix1 r)) 0#32 = 1#1 := by
    rw [sge_iff_toNat (by omega) (by decide)]; exact Nat.zero_le _
  have h2 : IntOp.cmpi .sle (x1 (ix1 r)) 31999#32 = 1#1 := by
    rw [sle_iff_toNat (by omega) (by decide)]
    show (x1 (ix1 r)).toNat ≤ 31999
    omega
  rw [h1, h2]; rfl

/-- Dropping the last axis (of size one) of the start indices' shape. -/
theorem red2 : S4096x1x1.Reduces [2] S4096x1 := by decide

/-- Sample `r` with the one coordinate of the dropped axis put back is the index `(r, 0, 0)`. -/
theorem lift2 (k : Fin 1) : red2.lift (ix2 r (0 : Fin 1)) k = ix3 r (0 : Fin 1) (0 : Fin 1) := by
  funext a; apply Fin.ext
  match a with
  | ⟨0, _⟩ => rfl
  | ⟨1, _⟩ => rfl
  | ⟨2, _⟩ => exact Fin.val_eq_zero k

/-- The and-reduction over the axis of size one of a mask that is 1 is 1. -/
theorem call0_v12_at (ht : (x1 (ix1 r)).toNat < 32000) :
    val_main_call0_v12 (F := Ideal) x1 (ix2 r (0 : Fin 1)) = 1#1 := by
  unfold val_main_call0_v12
  refine (Host.reduce_eq_fold_single (α := BitVec 1) IntOp.andi (val_main_call0_v11 (F := Ideal) x1)
    (val_main_call0_c_3 (F := Ideal)) reducesTo_S4096x1x1_S4096x1_d2 red2 h_S_ (ix2 r (0 : Fin 1))).trans ?_
  show Finset.fold IntOp.andi (1#1) (fun k : Fin 1 => val_main_call0_v11 (F := Ideal) x1 (red2.lift (ix2 r (0 : Fin 1)) k))
    Finset.univ = 1#1
  simp only [lift2, call0_v11_at x1 r ht]
  rw [Finset.univ_unique, Finset.fold_singleton]; rfl

end Class

section Gather

variable {α : Type}

/-- On the sample axis the gathered element's coordinate is the result's: the axis is a batching one, so its start
    and offset are zero. -/
theorem gather_ax0 (idx : IVec S4096x1x1 32) (r : Fin 4096) :
    gather_S4096x32000_S4096x1x1_S4096x1_n_1_0_0_1_2_11.start (ix2 r (0 : Fin 1)) idx (0 : Fin 2) + gather_S4096x32000_S4096x1x1_S4096x1_n_1_0_0_1_2_11.batchCoord (ix2 r (0 : Fin 1)) (0 : Fin 2)
      + gather_S4096x32000_S4096x1x1_S4096x1_n_1_0_0_1_2_11.offCoord (ix2 r (0 : Fin 1)) (0 : Fin 2) = r.val := by
  rw [GatherDims.start_batching gather_S4096x32000_S4096x1x1_S4096x1_n_1_0_0_1_2_11 _ idx (0 : Fin 2) (List.mem_singleton.mpr rfl),
    GatherDims.offCoord_eq_zero gather_S4096x32000_S4096x1x1_S4096x1_n_1_0_0_1_2_11 _ (0 : Fin 2)
      (fun h => ((GatherDims.mem_sKept gather_S4096x32000_S4096x1x1_S4096x1_n_1_0_0_1_2_11 _).mp h).2 (List.mem_singleton.mpr rfl))]
  simp only [Nat.zero_add, Nat.add_zero]
  unfold GatherDims.batchCoord
  rw [dif_pos (show (0 : Fin 2) ∈ gather_S4096x32000_S4096x1x1_S4096x1_n_1_0_0_1_2_11.operandBatchingDims from List.mem_singleton.mpr rfl)]
  rfl

/-- On the class axis the gathered element's coordinate is the start index read signed and clamped into
    `[0, 31999]`: the axis is collapsed and not a batching one, so its batching and offset coordinates are zero. -/
theorem gather_ax1 (idx : IVec S4096x1x1 32) (r : Fin 4096) :
    gather_S4096x32000_S4096x1x1_S4096x1_n_1_0_0_1_2_11.start (ix2 r (0 : Fin 1)) idx (1 : Fin 2) + gather_S4096x32000_S4096x1x1_S4096x1_n_1_0_0_1_2_11.batchCoord (ix2 r (0 : Fin 1)) (1 : Fin 2)
      + gather_S4096x32000_S4096x1x1_S4096x1_n_1_0_0_1_2_11.offCoord (ix2 r (0 : Fin 1)) (1 : Fin 2) = min (idx (ix3 r (0 : Fin 1) (0 : Fin 1))).toInt.toNat 31999 := by
  rw [GatherDims.batchCoord_eq_zero gather_S4096x32000_S4096x1x1_S4096x1_n_1_0_0_1_2_11 _ (1 : Fin 2) (by decide),
    GatherDims.offCoord_eq_zero gather_S4096x32000_S4096x1x1_S4096x1_n_1_0_0_1_2_11 _ (1 : Fin 2)
      (fun h => ((GatherDims.mem_sKept gather_S4096x32000_S4096x1x1_S4096x1_n_1_0_0_1_2_11 _).mp h).1 (List.mem_singleton.mpr rfl))]
  simp only [Nat.add_zero]
  unfold GatherDims.start
  rw [dif_pos (show (1 : Fin 2) ∈ gather_S4096x32000_S4096x1x1_S4096x1_n_1_0_0_1_2_11.startIndexMap from List.mem_singleton.mpr rfl)]
  have hsi : gather_S4096x32000_S4096x1x1_S4096x1_n_1_0_0_1_2_11.siIdx (ix2 r (0 : Fin 1)) ⟨List.idxOf (1 : Fin 2) gather_S4096x32000_S4096x1x1_S4096x1_n_1_0_0_1_2_11.startIndexMap,
      List.idxOf_lt_length_iff.2 (List.mem_singleton.mpr rfl)⟩ = ix3 r (0 : Fin 1) (0 : Fin 1) := by
    funext b; refine Fin.ext ?_
    match b with
    | ⟨0, _⟩ => rfl
    | ⟨1, _⟩ => rfl
    | ⟨2, _⟩ => rfl
  rw [hsi]
  rfl

/-- The batched gather read at sample `r`: the operand at `(r, c)`, `c` the sample's start index read signed and
    clamped into `[0, 31999]`. -/
theorem gather_at (x : S4096x32000.Idx → α) (idx : IVec S4096x1x1 32) (r : Fin 4096) :
    Host.gather gather_S4096x32000_S4096x1x1_S4096x1_n_1_0_0_1_2_11 x idx (ix2 r (0 : Fin 1))
      = x (ix2 r ⟨min (idx (ix3 r (0 : Fin 1) (0 : Fin 1))).toInt.toNat 31999, by omega⟩) := by
  unfold Host.gather
  congr 1
  funext a
  refine Fin.ext ?_
  match a with
  | ⟨0, _⟩ => exact gather_ax0 idx r
  | ⟨1, _⟩ => exact gather_ax1 idx r

end Gather

section Loss

open Idealize.ShloMosaic.StableHlo.Predicate

variable (x0 : (⟨S4096x32000, .f32⟩ : BufTy).Contents (Elt Ideal)) (x1 : (⟨S4096, .i32⟩ : BufTy).Contents (Elt Ideal))
  (r : Fin 4096)

/-- The gathered probability of sample `r` is the softmax probability at its class: the range test holds, so the
    select keeps the gathered element, and the clamp leaves a class word below 32000 alone. -/
theorem v13_row (ht : (x1 (ix1 r)).toNat < 32000) :
    val_main_v13 (F := Ideal) x0 x1 (ix1 r) = val_main_v10 (F := Ideal) x0 (ix2 r ⟨(x1 (ix1 r)).toNat, ht⟩) := by
  rw [val_main_v13_apply]
  have h : idx_main_v13 (ix1 r) = ix2 r (0 : Fin 1) := by
    funext a
    match a with
    | ⟨0, _⟩ => exact Fin.ext (Nat.div_one _)
    | ⟨1, _⟩ => rfl
  rw [h, val_main_v12_apply, call0_v12_at x1 r ht]
  refine (select_one _ _).trans ?_
  unfold val_main_call0_v13
  rw [gather_at]
  have hc : min (val_main_call0_v5 (F := Ideal) x1 (ix3 r (0 : Fin 1) (0 : Fin 1))).toInt.toNat 31999
      = (x1 (ix1 r)).toNat := by
    rw [call0_v5_at x1 r ht, toInt_eq_toNat_of_lt (by omega), Int.toNat_natCast]; omega
  exact congrArg (fun c => val_main_v10 (F := Ideal) x0 (ix2 r c)) (Fin.ext hc)

/-- The class mask at `(r, k)` is set exactly at the sample's class. -/
theorem v35_at (k : Fin 32000) (ht : (x1 (ix1 r)).toNat < 32000) :
    val_main_v35 (F := Ideal) x1 (ix2 r k) = 1#1 ↔ k = ⟨(x1 (ix1 r)).toNat, ht⟩ := by
  rw [val_main_v35_apply, val_main_v33_apply, val_main_v31_apply, val_main_v30_apply, val_main_v34_apply,
    val_main_v32_apply]
  have h : idx_main_v32 (idx_main_v34 (ix2 r k)) = ix1 r := by
    funext a; match a with | ⟨0, _⟩ => rfl
  rw [h, cmpi_eq_iff]
  show BitVec.ofNat 32 k.val = x1 (ix1 r) ↔ _
  have hk := k.isLt
  constructor
  · intro e
    apply Fin.ext
    have e' := congrArg BitVec.toNat e
    rw [BitVec.toNat_ofNat] at e'
    show k.val = (x1 (ix1 r)).toNat
    omega
  · intro e
    apply BitVec.eq_of_toNat_eq
    rw [BitVec.toNat_ofNat, e]
    show (x1 (ix1 r)).toNat % 2 ^ 32 = _
    omega

/-- The masked term at `(r, k)`: zero at the sample's class, the weighted term elsewhere. -/
theorem v36_at (k : Fin 32000) (ht : (x1 (ix1 r)).toNat < 32000) :
    val_main_v36 (F := Ideal) x0 x1 (ix2 r k)
      = if k = ⟨(x1 (ix1 r)).toNat, ht⟩ then Ideal.ofBits .f32 0x00000000#32
        else (Ideal.ofBits .f32 0x3651B8C5#32 * Ideal.pow (val_main_v10 (F := Ideal) x0 (ix2 r k)) (Ideal.ofBits .f32 0x40000000#32))
          * Ideal.log (Ideal.ofBits .f32 0x3F800000#32 - val_main_v10 (F := Ideal) x0 (ix2 r k)) := by
  rw [val_main_v36_apply]
  by_cases hk : k = ⟨(x1 (ix1 r)).toNat, ht⟩
  · rw [if_pos hk, (v35_at x1 r k ht).mpr hk]
    refine (select_one _ _).trans ?_
    rw [val_main_call1_v1_apply, val_main_call1_v0_apply, val_main_cst_8_apply]; rfl
  · rw [if_neg hk, eq_zero_of_ne_one (mt (v35_at x1 r k ht).mp hk)]
    refine (select_zero _ _).trans ?_
    rw [val_main_v29_apply, val_main_v25_apply, val_main_v24_apply, val_main_cst_6_apply, val_main_v23_apply,
      val_main_v22_apply, val_main_cst_5_apply, val_main_v28_apply, val_main_v27_apply, val_main_v26_apply,
      val_main_cst_7_apply]
    simp only [Ideal.ofBits_def, Ideal.mulf_def, Ideal.hostPowf_def, Ideal.hostUnary_log_def, Ideal.subf_def]

end Loss

/-- Sample `r`'s negated loss, from the logits `x0` and the classes `x1`, when the sample's class word is below
    32000. -/
theorem loss_row (x0 : (⟨S4096x32000, .f32⟩ : BufTy).Contents (Elt Ideal)) (x1 : (⟨S4096, .i32⟩ : BufTy).Contents (Elt Ideal))
    (r : Fin 4096) (ht : (x1 (ix1 r)).toNat < 32000) :
    val_main_v39 (F := Ideal) x0 x1 (ix1 r)
      = Cert.FocalRow.refRow (fun k => x0 (ix2 r k)) ⟨(x1 (ix1 r)).toNat, ht⟩ := by
  rw [val_main_v39_apply, val_main_v38_apply, val_main_v21_apply, val_main_v19_apply, val_main_v18_apply,
    val_main_cst_4_apply, val_main_v17_apply, val_main_v15_apply, val_main_v14_apply, val_main_cst_2_apply,
    val_main_v16_apply, val_main_cst_3_apply, val_main_v20_apply, v13_row x0 x1 r ht, val_main_v37_apply,
    val_main_cst_9_apply]
  have hs : ∑ k : Fin 32000, val_main_v36 (F := Ideal) x0 x1 (idx_main_v37 (ix1 r) k)
      = ∑ k : Fin 32000, (if k = ⟨(x1 (ix1 r)).toNat, ht⟩ then Ideal.ofBits .f32 0x00000000#32
        else (Ideal.ofBits .f32 0x3651B8C5#32 * Ideal.pow (val_main_v10 (F := Ideal) x0 (ix2 r k)) (Ideal.ofBits .f32 0x40000000#32))
          * Ideal.log (Ideal.ofBits .f32 0x3F800000#32 - val_main_v10 (F := Ideal) x0 (ix2 r k))) :=
    Finset.sum_congr rfl fun k _ => by
      have h : idx_main_v37 (ix1 r) k = ix2 r k := by
        funext a; match a with | ⟨0, _⟩ => rfl | ⟨1, _⟩ => rfl
      rw [h, v36_at x0 x1 r k ht]
  rw [hs]
  simp only [v10_at, Ideal.ofBits_def, Ideal.mulf_def, Ideal.hostPowf_def, Ideal.hostUnary_log_def, Ideal.subf_def,
    Ideal.addf_def, Ideal.hostNegf_def, Ideal.negf_def]
  rfl

end Cert.ReferenceIdeal.Hand

end
-- ==== Proof.RefValue.lean ====
/-
  The reference's result: the mean over the samples of `refRow` of each sample's row.
-/
import proofs.«430663_j9826885174161_3_alg».proof.Proof.RefRow
import Idealize.ShloMosaic.Lib.ValueIdxRank1

noncomputable section

namespace Cert.ReferenceIdeal.Hand

open Idealize.ShloMosaic Idealize.ShloMosaic.TcCoe Idealize.ShloMosaic.ValueIdx
open Cert.ReferenceIdeal Cert.ReferenceIdeal.Gen Cert.ReferenceIdeal.Read

/-- The sum, from zero, of the samples' negated losses, divided by 4096. -/
theorem result_eq (x0 : (⟨S4096x32000, .f32⟩ : BufTy).Contents (Elt Ideal)) (x1 : (⟨S4096, .i32⟩ : BufTy).Contents (Elt Ideal))
    (hT : ∀ r : Fin 4096, (x1 (ix1 r)).toNat < 32000) :
    val_main_v41 (F := Ideal) x0 x1
      = fun _ => Ideal.div (Ideal.ofBits .f32 0x00000000#32
          + ∑ r : Fin 4096, Cert.FocalRow.refRow (fun k => x0 (ix2 r k)) ⟨(x1 (ix1 r)).toNat, hT r⟩)
          (Ideal.ofBits .f32 0x45800000#32) := by
  funext j
  rw [val_main_v41_apply, val_main_v40_apply, ← Equiv.sum_comp (idxEquiv1 (n := 4096)).symm]
  show Ideal.div (Ideal.ofBits .f32 0x00000000#32 + ∑ r : Fin 4096, val_main_v39 (F := Ideal) x0 x1 (ix1 r)) (Ideal.ofBits .f32 0x45800000#32) = _
  rw [Finset.sum_congr rfl fun r _ => loss_row x0 x1 r (hT r)]

end Cert.ReferenceIdeal.Hand

end
-- ==== Proof.lean ====
/-
  A softmax focal loss with label smoothing over 4096 samples of 32000 classes, as a Pallas kernel of 64 row blocks
  followed by a mean, against the jnp formula.

  For one sample with logits `x` and class `t` both programs form the softmax `P k = exp (x k - m) / s`
  (`m` the row's largest entry, `s` the sum of the exponentials) and the loss
  `-(w₊ · (1 - P t)² · log (P t) + w₋ · ∑_{k ≠ t} (P k)² · log (1 - P k))`, and both return the mean over the samples.
  The kernel multiplies by `1 / s` instead of dividing, takes `log (P t)` as `(x t - m) - log s`, finds `x t - m` by
  a one-hot sum over the row, squares by a product, and sums over `k ≠ t` as the full sum minus the term at `t`
  (`RowLoss.lean` states both arrangements; `RowLossEq.lean` proves them equal on a row of reals: there every
  `P k` lies strictly between 0 and 1, so all logarithms are of positive reals and the weight `w₋` distributes over
  the difference).

  The claim holds where every logit is finite and every class is in `[0, 32000)`: outside that range the jnp formula
  indexes the softmax out of range. `Pre.lean` reads both facts off the precondition.
  `KernelRow.lean` shows that row `p` of the block the kernel body stores is the kernel's arrangement of that row;
  `KernelValue.lean` that the 64 blocks tile the loss column and that the program returns the mean of the rows' losses;
  `RefRow.lean` and `RefValue.lean` the same for the jnp formula. The idealization rewrote nothing, so `preserves` is
  trivial; the kernel's two frames are the generated ones and the reference's is its generated run.
-/
import proofs.«430663_j9826885174161_3_alg».proof.Defs
import proofs.«430663_j9826885174161_3_alg».proof.Proof.Gen.Kernel
import proofs.«430663_j9826885174161_3_alg».proof.Proof.Gen.Kernel.Skeleton
import proofs.«430663_j9826885174161_3_alg».proof.Proof.Gen.Kernel.Launch
import proofs.«430663_j9826885174161_3_alg».proof.Proof.Gen.Kernel.Points
import proofs.«430663_j9826885174161_3_alg».proof.Proof.Gen.Kernel.Frame
import proofs.«430663_j9826885174161_3_alg».proof.Proof.Gen.KernelIdeal
import proofs.«430663_j9826885174161_3_alg».proof.Proof.Gen.KernelIdeal.Skeleton
import proofs.«430663_j9826885174161_3_alg».proof.Proof.Gen.KernelIdeal.Launch
import proofs.«430663_j9826885174161_3_alg».proof.Proof.Gen.KernelIdeal.Points
import proofs.«430663_j9826885174161_3_alg».proof.Proof.Gen.KernelIdeal.Frame
import proofs.«430663_j9826885174161_3_alg».proof.Proof.Gen.ReferenceIdeal
import proofs.«430663_j9826885174161_3_alg».proof.Proof.Gen.Pre_finite_inputs
import proofs.«430663_j9826885174161_3_alg».proof.Proof.Gen.ReferenceIdeal.Run
import proofs.«430663_j9826885174161_3_alg».proof.Proof.Gen.ReferenceIdeal.Read
import proofs.«430663_j9826885174161_3_alg».proof.Proof.Pre
import proofs.«430663_j9826885174161_3_alg».proof.Proof.RowLossEq
import proofs.«430663_j9826885174161_3_alg».proof.Proof.KernelValue
import proofs.«430663_j9826885174161_3_alg».proof.Proof.RefValue
import Idealize.ShloMosaic.Adequacy
import Idealize.ShloMosaic.Init

noncomputable section

namespace Cert.Proof

open Idealize.ShloMosaic Idealize.ShloMosaic.ValueIdx Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- From memories that agree on the logits and the classes, both programs end with the mean over the samples of the
    row's loss: the kernel's arrangement of it on one side, the formula's on the other, equal on every row because
    the precondition makes the row real and the class a column of the row. -/
theorem algebraic : Cert.algebraic_KernelIdeal_ReferenceIdeal := by
  intro m ρ m' ρ' hpre hagree
  have hdec := fun c => Cert.Pre_finite_inputs.Hand.decode _ _ (hpre c)
  have hT : ∀ (c : Dev Cert.KernelIdeal.nD) (r : Fin 4096), (Cert.KernelIdeal.Hand.classes m c (ix1 r)).toNat < 32000 :=
    fun c r => (hdec c).2 r
  refine ⟨_, Cert.KernelIdeal.Hand.run m ρ hT, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v41_eq, (hagree c).1, (hagree c).2,
    Cert.ReferenceIdeal.Hand.result_eq _ _ (hT c)]
  obtain ⟨xr, hxr⟩ := Classical.axiomOfChoice (hdec c).1
  funext _
  refine congrArg (fun s => Ideal.div (Ideal.ofBits .f32 0x00000000#32 + s) (Ideal.ofBits .f32 0x45800000#32))
    (Finset.sum_congr rfl fun r _ => ?_)
  have hrow : (fun k : Fin 32000 => Cert.KernelIdeal.Hand.logits m c (ix2 r k)) = fun k => ((xr (ix2 r k) : ℝ) : EReal) :=
    funext fun k => hxr (ix2 r k)
  show Cert.FocalRow.refRow (fun k : Fin 32000 => Cert.KernelIdeal.Hand.logits m c (ix2 r k)) _
    = Cert.FocalRow.kernelRow (fun k : Fin 32000 => Cert.KernelIdeal.Hand.logits m c (ix2 r k)) _
  rw [hrow]
  exact (Cert.FocalRow.kernelRow_eq_refRow (fun k => xr (ix2 r k)) _).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
